-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S2x8192x512 : Shape := ⟨3, ![2, 8192, 512]⟩
abbrev S2x1x512 : Shape := ⟨3, ![2, 1, 512]⟩
abbrev S_ : Shape := ⟨0, ![]⟩
abbrev S1x512 : Shape := ⟨2, ![1, 512]⟩
abbrev S512 : Shape := ⟨1, ![512]⟩
abbrev S1x1024x512 : Shape := ⟨3, ![1, 1024, 512]⟩
abbrev S1x1x512 : Shape := ⟨3, ![1, 1, 512]⟩

abbrev nBuf : Space → Nat
  | .hbm => 21
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S2x8192x512, .f32⟩
  | .hbm, ⟨3, _⟩ => ⟨S2x8192x512, .f32⟩
  | .hbm, ⟨4, _⟩ => ⟨S2x1x512, .f32⟩
  | .hbm, ⟨5, _⟩ => ⟨S2x1x512, .f32⟩
  | .hbm, ⟨6, _⟩ => ⟨S_, .f32⟩
  | .hbm, ⟨7, _⟩ => ⟨S1x512, .f32⟩
  | .hbm, ⟨8, _⟩ => ⟨S512, .f32⟩
  | .hbm, ⟨9, _⟩ => ⟨S_, .f32⟩
  | .hbm, ⟨10, _⟩ => ⟨S1x512, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_cst_2 : Ref sig .tc := ⟨.hbm, 15, rfl⟩
abbrev main_call0_v9 : Ref sig .tc := ⟨.hbm, 16, rfl⟩
abbrev main_call0_cst_3 : Ref sig .tc := ⟨.hbm, 17, rfl⟩
abbrev main_call0_v10 : Ref sig .tc := ⟨.hbm, 18, rfl⟩
abbrev main_call0_cst_4 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384x512_S2x8192x512 : S16384x512.ShapeCasts S2x8192x512
  reducesTo_S2x1x512_S1x512_d0 : S2x1x512.ReducesTo [0] S1x512
  h_S_ : 0 < S_.numel
  shapeCasts_S1x512_S512 : S1x512.ShapeCasts S512
  reducesTo_S512_S_d0 : S512.ReducesTo [0] S_
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1x1024x512 : S1x1024x512.ShapeCasts S1x1024x512
  reduces_S1x1024x512_S1x512 : S1x1024x512.Reduces [1] S1x512
  shapeCasts_S1x512_S1x1x512 : S1x512.ShapeCasts S1x1x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x8192x512.size a
  hwx0_0 : ∀ i : grid0.Coords, EltTy.bits .f32 = 32 ∨ (Rect.block (s := S2x8192x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S2x8192x512.size a
  hwx0_1 : ∀ i : grid0.Coords, EltTy.bits .f32 = 32 ∨ (Rect.block (s := S2x8192x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S2x1x512.size a
  hwx0_2 : ∀ i : grid0.Coords, EltTy.bits .f32 = 32 ∨ (Rect.block (s := S2x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)

variable [Facts₀]

abbrev win0_0 : Pipeline.Window sig grid0 :=
  Pipeline.Window.ofSpec (Memref.whole main_call0_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x16384 : Shape := ⟨2, ![512, 16384]⟩
abbrev S16384x16384 : Shape := ⟨2, ![16384, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x16384, .f32⟩
  | .hbm, ⟨3, _⟩ => ⟨S16384x16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  transposes_S16384x512_S512x16384_1_0 : S16384x512.Transposes [1, 0] S512x16384
  reducesTo_S16384x16384_S_d0_1 : S16384x16384.ReducesTo [0, 1] S_
  h_S_ : 0 < S_.numel
  dot_S16384x512_S512x16384_S16384x16384_1_0_0_1_n_n_wf : DotDims.WF S16384x512 S512x16384 S16384x16384 [1] [0] [0] [1] [] []

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf

class Facts : Prop extends Facts₀ where

variable [Facts]
-- ==== Proof.CaseValues.lean ====
/-
  What one grid step of the column-sum kernel leaves in its two accumulator blocks.

  A step loads its [1, 1024, 512] block of each operand, sums it over the 1024 rows, and adds that row of 512 lane
  sums to the accumulator block [1, 1, 512] of the same operand.  At the first step of each half (inner grid
  coordinate 0) the accumulators are first overwritten with zeros, so the step leaves  0 + (row sum of the block);
  at every other step it leaves  (what the step before left) + (row sum of the block).  Both are one and the same
  payload of the kernel, applied to the zero block or to the carried block.
-/
import proofs.«401128_j15513421873437_3_alg».proof.Proof.Gen.KernelIdeal.Frame
import Idealize.ShloMosaic.Lib.Pipeline.Value
import Idealize.ShloMosaic.Lib.Tactic

noncomputable section

namespace Cert.KernelIdeal.ColSum

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

/-- A later step, first operand: the accumulator holding `xo2` ends at `xo2 + (row sum of x0)`. -/
theorem later_a (c : Dev nD) (i : grid0.Coords) (arg2 : Memref sig .tc .vmem S1x1024x512 .f32) (harg2 : arg2.IsWhole)
    (arg3 : Memref sig .tc .vmem S1x1024x512 .f32) (harg3 : arg3.IsWhole) (arg4 : Memref sig .tc .vmem S1x1x512 .f32)
    (harg4 : arg4.IsWhole) (arg5 : Memref sig .tc .vmem S1x1x512 .f32) (harg5 : arg5.IsWhole) (hc0 : ¬cond0_0 i)
    (x0 x1 : Vec F S1x1024x512 .f32) (xo2 xo3 : Vec F S1x1x512 .f32) :
    out0_B_2 c i arg2 harg2 arg3 harg3 arg4 harg4 arg5 harg5 hc0 x0 x1 xo2 xo3 = k0_pay3 xo2 x0 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg4.read_unread, harg2.read_unread, View.ld_unit_zero (S := S1x1x512) hz3,
    View.ld_unit_zero (S := S1x1024x512) hz3]

/-- A later step, second operand: the accumulator holding `xo3` ends at `xo3 + (row sum of x1)`. -/
theorem later_b (c : Dev nD) (i : grid0.Coords) (arg2 : Memref sig .tc .vmem S1x1024x512 .f32) (harg2 : arg2.IsWhole)
    (arg3 : Memref sig .tc .vmem S1x1024x512 .f32) (harg3 : arg3.IsWhole) (arg4 : Memref sig .tc .vmem S1x1x512 .f32)
    (harg4 : arg4.IsWhole) (arg5 : Memref sig .tc .vmem S1x1x512 .f32) (harg5 : arg5.IsWhole) (hc0 : ¬cond0_0 i)
    (x0 x1 : Vec F S1x1024x512 .f32) (xo2 xo3 : Vec F S1x1x512 .f32) :
    out0_B_3 c i arg2 harg2 arg3 harg3 arg4 harg4 arg5 harg5 hc0 x0 x1 xo2 xo3 = k0_pay4 xo3 x1 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg5.read_unread, harg3.read_unread, View.ld_unit_zero (S := S1x1x512) hz3,
    View.ld_unit_zero (S := S1x1024x512) hz3]

/-- A first step, first operand: the zero block is stored, read back, and the accumulator ends at
    `0 + (row sum of x0)`. -/
theorem first_a (c : Dev nD) (i : grid0.Coords) (arg2 : Memref sig .tc .vmem S1x1024x512 .f32) (harg2 : arg2.IsWhole)
    (arg3 : Memref sig .tc .vmem S1x1024x512 .f32) (harg3 : arg3.IsWhole) (arg4 : Memref sig .tc .vmem S1x1x512 .f32)
    (harg4 : arg4.IsWhole) (arg5 : Memref sig .tc .vmem S1x1x512 .f32) (harg5 : arg5.IsWhole) (hc0 : cond0_0 i)
    (x0 x1 : Vec F S1x1024x512 .f32) :
    out0_A_2 c i arg2 harg2 arg3 harg3 arg4 harg4 arg5 harg5 hc0 x0 x1 = k0_pay3 (k0_pay1 (F := F)) x0 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1x512) hz3, View.readCov_unit_zero (S := S1x1x512) _ hz3]
  simp only [View.readAt_eq_ld, harg2.read_unread, View.ld_unit_zero (S := S1x1024x512) hz3]

/-- A first step, second operand: the accumulator ends at `0 + (row sum of x1)`. -/
theorem first_b (c : Dev nD) (i : grid0.Coords) (arg2 : Memref sig .tc .vmem S1x1024x512 .f32) (harg2 : arg2.IsWhole)
    (arg3 : Memref sig .tc .vmem S1x1024x512 .f32) (harg3 : arg3.IsWhole) (arg4 : Memref sig .tc .vmem S1x1x512 .f32)
    (harg4 : arg4.IsWhole) (arg5 : Memref sig .tc .vmem S1x1x512 .f32) (harg5 : arg5.IsWhole) (hc0 : cond0_0 i)
    (x0 x1 : Vec F S1x1024x512 .f32) :
    out0_A_3 c i arg2 harg2 arg3 harg3 arg4 harg4 arg5 harg5 hc0 x0 x1 = k0_pay4 (k0_pay2 (F := F)) x1 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x512) hz3, View.readCov_unit_zero (S := S1x1x512) _ hz3]
  simp only [View.readAt_eq_ld, harg3.read_unread, View.ld_unit_zero (S := S1x1024x512) hz3]

end Cert.KernelIdeal.ColSum

end
-- ==== Proof.LibFlatten.lean ====
/-
  Layout operations of rank three read at an index given by coordinates, and the two operations that carry a sum:
  a stack of rows `[a, b, c]` flattened to `[a * b, c]` and back (row `p * b + q` of the flat array is row `(p, q)`
  of the stack), the three ways a smaller array is stretched over `[a, b, c]` (one row per `a`, one row for all, one
  column per `(a, b)`), the unit-axis casts that precede them, a sum over the middle axis, and a matrix product into
  a zero accumulator as the plain sum over the shared index.
-/
import Idealize.ShloMosaic.Lib.Pipeline.Value
import Idealize.ShloMosaic.Lib.ValueIdx
import Idealize.ShloMosaic.PureOps.Ideal.Laws

namespace Cert.LibFlatten

open Idealize.ShloMosaic Idealize.ShloMosaic.ValueIdx

variable {α : Type}

/-! ## A stack of rows flattened, and a flat array stacked -/

/-- `[a, b, c]` cast to `[n, c]` with `n = a * b`: row `p * b + q` of the result is row `(p, q)` of the operand. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (i : Fin n)
    (hi : i.val = p.val * b + q.val) :
    shapeCast ⟨2, ![n, c]⟩ x h (ix2 i r) = x (ix3 p q r) :=
  shapeCast_apply x h _ _ (by
    rw [Shape.rowMajor_val_three, Shape.rowMajor_val_two]
    show (p.val * b + q.val) * c + r.val = i.val * c + r.val
    rw [hi])

/-- `[n, c]` cast to `[a, b, c]` with `n = a * b`: row `(p, q)` of the result is row `p * b + q` of the operand. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (r : Fin c) (i : Fin n)
    (hi : i.val = p.val * b + q.val) :
    shapeCast ⟨3, ![a, b, c]⟩ y h (ix3 p q r) = y (ix2 i r) :=
  shapeCast_apply y h _ _ (by
    rw [Shape.rowMajor_val_three, Shape.rowMajor_val_two]
    show i.val * c + r.val = (p.val * b + q.val) * c + r.val
    rw [hi])

/-! ## Unit axes put in -/

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[c]` cast to `[1, 1, c]` reads, at `(u, u', r)`, the operand at `r`. -/
theorem shapeCast_c_11c_apply {c : ℕ} (x : (⟨1, ![c]⟩ : Shape).Idx → α)
    (h : (⟨1, ![c]⟩ : Shape).ShapeCasts ⟨3, ![1, 1, c]⟩) (u u' : Fin 1) (r : Fin c) :
    shapeCast ⟨3, ![1, 1, c]⟩ x h (ix3 u u' r) = x (ix1 r) :=
  shapeCast_apply x h _ _ (by
    have hu : u.val = 0 := by omega
    have hu' : u'.val = 0 := by omega
    rw [Shape.rowMajor_val_three, Shape.rowMajor_val_one]
    show r.val = (u.val * 1 + u'.val) * c + r.val
    simp [hu, hu'])

/-! ## A smaller array stretched over `[a, b, c]` -/

/-- `[a, 1, c]` broadcast to `[a, b, c]`: every `q` reads row `p`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[1, 1, c]` broadcast to `[a, b, c]`: every `(p, q)` reads the one row. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, b, 1]` broadcast to `[a, b, c]`: every lane `r` reads the entry of `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A sum over the middle axis -/

/-- The index a reduction of `[a, b, c]` over its middle axis puts back at `(p, r)` and summand `k` is `(p, k, r)`. -/
theorem lift_mid {a b c : ℕ} (h : (⟨3, ![a, b, c]⟩ : Shape).Reduces [1] ⟨2, ![a, c]⟩) (p : Fin a) (r : Fin c) (k : Fin b) :
    h.lift (ix2 p r) k = ix3 p k r :=
  funext fun ax => Fin.ext (by
    match ax with
    | ⟨0, _⟩ => rfl
    | ⟨1, _⟩ => rfl
    | ⟨2, _⟩ => rfl)

/-- A float sum of `[a, b, c]` over its middle axis, on the extended reals, at `(p, r)`: the sum over `k` of the
    entries `(p, k, r)`. -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  rw [Ideal.multiReduction_add_single]
  exact Finset.sum_congr rfl fun k _ => congrArg src (lift_mid h p r k)

/-! ## A matrix product into a zero accumulator -/

/-- `[M, K]` times `[K, N]` into the zero accumulator, on the extended reals, at `(p, q)`: the sum over the shared
    index of the products, whatever the precision key. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun ax => Fin.ext (by
      match ax with
      | ⟨0, _⟩ => exact ((DotDims.plain M K N).rhsIdx_val_of_single rfl (ix2 p q) _).trans hk
      | ⟨1, _⟩ => rfl)
  rw [el, er]

end Cert.LibFlatten
-- ==== Proof.StepAtLane.lean ====
/-
  One accumulation step read at a lane, over the extended reals.

  The step's payload is  acc + (sum of the block over its 1024 rows).  At lane `k` of the [1, 1, 512] accumulator
  this is  acc[0, 0, k] + ∑ r, block[0, r, k];  the zero block a first step starts from is `0` at every lane.
-/
import proofs.«401128_j15513421873437_3_alg».proof.Proof.Gen.KernelIdeal.Skeleton
import proofs.«401128_j15513421873437_3_alg».proof.Proof.LibFlatten
import Idealize.ShloMosaic.Lib.Pipeline.Value
import Idealize.ShloMosaic.Lib.ValueIdx
import Idealize.ShloMosaic.PureOps.Ideal.Laws

noncomputable section

namespace Cert.KernelIdeal.ColSum

open Idealize.ShloMosaic Idealize.ShloMosaic.ValueIdx
open Cert.KernelIdeal Cert.KernelIdeal.Gen

/-- The row of lane sums of a block, stood up as a [1, 1, 512] block, at lane `k`: the sum over the block's rows. -/
theorem rowsum_apply (v : Vec Ideal S1x1024x512 .f32) (u u' : Fin 1) (k : Fin 512) :
    shapeCast S1x1x512
        (multiReduction (F := Ideal) .add [1] S1x512 (shapeCast S1x1024x512 v shapeCasts_S1x1024x512_S1x1024x512) 0x00000000#32
          reduces_S1x1024x512_S1x512 (.inl rfl) rfl)
        shapeCasts_S1x512_S1x1x512 (ix3 u u' k)
      = ∑ r : Fin 1024, v (ix3 (0 : Fin 1) r k) := by
  obtain rfl : u = 0 := Subsingleton.elim _ _
  rw [shapeCast_self v]
  refine (Cert.LibFlatten.shapeCast_ac_a1c_apply _ shapeCasts_S1x512_S1x1x512 (0 : Fin 1) u' k).trans ?_
  exact Cert.LibFlatten.multiReduction_add_mid_apply (φ := .f32) v 0x00000000#32 reduces_S1x1024x512_S1x512
    (.inl rfl) rfl (0 : Fin 1) k

/-- The first operand's step at lane `k`. -/
theorem step_a_apply (acc : Vec Ideal S1x1x512 .f32) (v : Vec Ideal S1x1024x512 .f32) (u u' : Fin 1) (k : Fin 512) :
    k0_pay3 acc v (ix3 u u' k) = acc (ix3 u u' k) + ∑ r : Fin 1024, v (ix3 (0 : Fin 1) r k) := by
  unfold k0_pay3
  show shapeCast S1x1x512 acc shapeCasts_S1x1x512_S1x1x512 (ix3 u u' k) + _ = _
  rw [shapeCast_self acc]
  exact congrArg (acc (ix3 u u' k) + ·) (rowsum_apply v u u' k)

/-- The second operand's step at lane `k`. -/
theorem step_b_apply (acc : Vec Ideal S1x1x512 .f32) (v : Vec Ideal S1x1024x512 .f32) (u u' : Fin 1) (k : Fin 512) :
    k0_pay4 acc v (ix3 u u' k) = acc (ix3 u u' k) + ∑ r : Fin 1024, v (ix3 (0 : Fin 1) r k) := by
  unfold k0_pay4
  show shapeCast S1x1x512 acc shapeCasts_S1x1x512_S1x1x512 (ix3 u u' k) + _ = _
  rw [shapeCast_self acc]
  exact congrArg (acc (ix3 u u' k) + ·) (rowsum_apply v u u' k)

/-- The zero block a first step stores is `0` at every lane (first operand), -/
theorem zero_a_apply (i : S1x1x512.Idx) : k0_pay1 (F := Ideal) i = 0 := by
  unfold k0_pay1
  exact Ideal.ofBits_zero_f32

/-- and likewise for the second operand. -/
theorem zero_b_apply (i : S1x1x512.Idx) : k0_pay2 (F := Ideal) i = 0 := by
  unfold k0_pay2
  exact Ideal.ofBits_zero_f32

end Cert.KernelIdeal.ColSum

end
-- ==== Proof.Accumulate.lean ====
/-
  The two accumulators across the grid, at a lane.

  The grid's 16 points run in order; points 8q … 8q + 7 work on half `q` of the rows.  Point 8q starts both
  accumulators from zero, every later point of the run adds its block's row sums.  So after point 8q + j the first
  accumulator holds, at lane `k`,

      0 + ∑ s ≤ j, (∑ r, block of point 8q + s at [0, r, k])

  and the second likewise: induction on `j`, a first step at `j = 0` and a later step after it.
-/
import proofs.«401128_j15513421873437_3_alg».proof.Proof.CaseValues
import proofs.«401128_j15513421873437_3_alg».proof.Proof.StepAtLane

noncomputable section

namespace Cert.KernelIdeal.ColSum

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The block of the first operand that point `t` works on, -/
abbrev ablk (c : Dev nD) (t : Fin cfg0.N) : Vec Ideal S1x1024x512 .f32 := iblk m c 0 t
/-- and of the second. -/
abbrev bblk (c : Dev nD) (t : Fin cfg0.N) : Vec Ideal S1x1024x512 .f32 := iblk m c 1 t

/-- The first accumulator after point `n`, -/
abbrev accA (c : Dev nD) (n : ℕ) (h : n < cfg0.N) : Vec Ideal S1x1x512 .f32 := (outsAt0 m c n h).1
/-- and the second. -/
abbrev accB (c : Dev nD) (n : ℕ) (h : n < cfg0.N) : Vec Ideal S1x1x512 .f32 := (outsAt0 m c n h).2

theorem accA_first (c : Dev nD) (n : ℕ) (h : n < cfg0.N) (h0 : n % 8 = 0) :
    accA m c n h = k0_pay3 (k0_pay1 (F := Ideal)) (ablk m c ⟨n, h⟩) := by
  show (outsAt0 m c (⟨n, h⟩ : Fin cfg0.N).val (⟨n, h⟩ : Fin cfg0.N).isLt).1 = _
  rw [outsAt0_A m c ⟨n, h⟩ h0]
  dsimp only
  exact first_a (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩)
    ((hcond0_0 ⟨n, h⟩).mpr h0) (ablk m c ⟨n, h⟩) (bblk m c ⟨n, h⟩)

theorem accB_first (c : Dev nD) (n : ℕ) (h : n < cfg0.N) (h0 : n % 8 = 0) :
    accB m c n h = k0_pay4 (k0_pay2 (F := Ideal)) (bblk m c ⟨n, h⟩) := by
  show (outsAt0 m c (⟨n, h⟩ : Fin cfg0.N).val (⟨n, h⟩ : Fin cfg0.N).isLt).2 = _
  rw [outsAt0_A m c ⟨n, h⟩ h0]
  dsimp only
  exact first_b (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩)
    ((hcond0_0 ⟨n, h⟩).mpr h0) (ablk m c ⟨n, h⟩) (bblk m c ⟨n, h⟩)

theorem accA_later (c : Dev nD) (n : ℕ) (h : n + 1 < cfg0.N) (h0 : ¬(n + 1) % 8 = 0) :
    accA m c (n + 1) h = k0_pay3 (accA m c n (Nat.lt_of_succ_lt h)) (ablk m c ⟨n + 1, h⟩) := by
  show (outsAt0 m c (⟨n + 1, h⟩ : Fin cfg0.N).val (⟨n + 1, h⟩ : Fin cfg0.N).isLt).1 = _
  rw [outsAt0_B m c ⟨n + 1, h⟩ h0]
  dsimp only
  exact later_a (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
    (fun hh => h0 ((hcond0_0 ⟨n + 1, h⟩).mp hh)) (ablk m c ⟨n + 1, h⟩) (bblk m c ⟨n + 1, h⟩)
    (accA m c n (Nat.lt_of_succ_lt h)) (accB m c n (Nat.lt_of_succ_lt h))

theorem accB_later (c : Dev nD) (n : ℕ) (h : n + 1 < cfg0.N) (h0 : ¬(n + 1) % 8 = 0) :
    accB m c (n + 1) h = k0_pay4 (accB m c n (Nat.lt_of_succ_lt h)) (bblk m c ⟨n + 1, h⟩) := by
  show (outsAt0 m c (⟨n + 1, h⟩ : Fin cfg0.N).val (⟨n + 1, h⟩ : Fin cfg0.N).isLt).2 = _
  rw [outsAt0_B m c ⟨n + 1, h⟩ h0]
  dsimp only
  exact later_b (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
    (fun hh => h0 ((hcond0_0 ⟨n + 1, h⟩).mp hh)) (ablk m c ⟨n + 1, h⟩) (bblk m c ⟨n + 1, h⟩)
    (accA m c n (Nat.lt_of_succ_lt h)) (accB m c n (Nat.lt_of_succ_lt h))

/-- What point `n` adds to the first accumulator at lane `k`: its block summed over the rows (`0` past the grid). -/
def addA (c : Dev nD) (n : ℕ) (k : Fin 512) : EReal :=
  if h : n < cfg0.N then ∑ r : Fin 1024, ablk m c ⟨n, h⟩ (ix3 (0 : Fin 1) r k) else 0
/-- What point `n` adds to the second accumulator at lane `k`. -/
def addB (c : Dev nD) (n : ℕ) (k : Fin 512) : EReal :=
  if h : n < cfg0.N then ∑ r : Fin 1024, bblk m c ⟨n, h⟩ (ix3 (0 : Fin 1) r k) else 0

theorem addA_of_lt (c : Dev nD) (n : ℕ) (k : Fin 512) (h : n < cfg0.N) :
    addA m c n k = ∑ r : Fin 1024, ablk m c ⟨n, h⟩ (ix3 (0 : Fin 1) r k) := by
  unfold addA; exact dif_pos h
theorem addB_of_lt (c : Dev nD) (n : ℕ) (k : Fin 512) (h : n < cfg0.N) :
    addB m c n k = ∑ r : Fin 1024, bblk m c ⟨n, h⟩ (ix3 (0 : Fin 1) r k) := by
  unfold addB; exact dif_pos h

/-- After point 8q + j of a run the first accumulator holds, at lane `k`, zero plus what the run's points so far added. -/
theorem accA_lane (c : Dev nD) (q : ℕ) (k : Fin 512) : ∀ (j : ℕ) (_ : j < 8) (h : 8 * q + j < cfg0.N),
    accA m c (8 * q + j) h (ix3 (0 : Fin 1) (0 : Fin 1) k) = 0 + ∑ s ∈ Finset.range (j + 1), addA m c (8 * q + s) k
  | 0, _, h => by
    rw [accA_first m c (8 * q + 0) h (by omega), step_a_apply, zero_a_apply, Finset.sum_range_one]
    exact congrArg (0 + ·) (addA_of_lt m c _ k h).symm
  | j + 1, hj, h => by
    have hne : ¬(8 * q + j + 1) % 8 = 0 := by omega
    refine (congrFun (accA_later m c (8 * q + j) h hne) (ix3 (0 : Fin 1) (0 : Fin 1) k)).trans ?_
    rw [step_a_apply, accA_lane c q k j (Nat.lt_of_succ_lt hj) (Nat.lt_of_succ_lt h), Finset.sum_range_succ _ (j + 1),
      add_assoc]
    exact congrArg (fun z => 0 + (∑ s ∈ Finset.range (j + 1), addA m c (8 * q + s) k + z)) (addA_of_lt m c _ k h).symm

/-- The same for the second accumulator. -/
theorem accB_lane (c : Dev nD) (q : ℕ) (k : Fin 512) : ∀ (j : ℕ) (_ : j < 8) (h : 8 * q + j < cfg0.N),
    accB m c (8 * q + j) h (ix3 (0 : Fin 1) (0 : Fin 1) k) = 0 + ∑ s ∈ Finset.range (j + 1), addB m c (8 * q + s) k
  | 0, _, h => by
    rw [accB_first m c (8 * q + 0) h (by omega), step_b_apply, zero_b_apply, Finset.sum_range_one]
    exact congrArg (0 + ·) (addB_of_lt m c _ k h).symm
  | j + 1, hj, h => by
    have hne : ¬(8 * q + j + 1) % 8 = 0 := by omega
    refine (congrFun (accB_later m c (8 * q + j) h hne) (ix3 (0 : Fin 1) (0 : Fin 1) k)).trans ?_
    rw [step_b_apply, accB_lane c q k j (Nat.lt_of_succ_lt hj) (Nat.lt_of_succ_lt h), Finset.sum_range_succ _ (j + 1),
      add_assoc]
    exact congrArg (fun z => 0 + (∑ s ∈ Finset.range (j + 1), addB m c (8 * q + s) k + z)) (addB_of_lt m c _ k h).symm

end Cert.KernelIdeal.ColSum

end
-- ==== Proof.Partials.lean ====
/-
  What the kernel's two result arrays hold when it ends.

  Each result array is [2, 1, 512]: one row of 512 lane sums per half.  Its block for half `p` stays in place through
  the run of points 8p … 8p + 7 and is written back once, after point 8p + 7; the two write-backs cover the array.
  So entry [p, 0, k] ends at the accumulator's value after point 8p + 7:  0 + ∑ s < 8, (what point 8p + s added).
-/
import proofs.«401128_j15513421873437_3_alg».proof.Proof.Accumulate

noncomputable section

namespace Cert.KernelIdeal.ColSum

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem accA_at (c : Dev nD) (n : ℕ) (h : n < cfg0.N) (k : Fin 512) :
    accA m c n h (ix3 (0 : Fin 1) (0 : Fin 1) k)
      = 0 + ∑ s ∈ Finset.range (n % 8 + 1), addA m c (8 * (n / 8) + s) k := by
  have e : 8 * (n / 8) + n % 8 = n := Nat.div_add_mod n 8
  have h' : 8 * (n / 8) + n % 8 < cfg0.N := by omega
  have same : ∀ (u : ℕ) (hu : u < cfg0.N), u = n → accA m c u hu = accA m c n h := fun u hu e => by subst e; rfl
  rw [← same _ h' e]
  exact accA_lane m c (n / 8) k (n % 8) (Nat.mod_lt _ (by norm_num)) h'

/-- What the first result array [2, 1, 512] holds at the end: for half `p` and lane `k`, zero plus what the eight points
    of the half's run added. -/
def partialA (c : Dev nD) : Vec Ideal S2x1x512 .f32 :=
  fun i => 0 + ∑ s ∈ Finset.range 8, addA m c (8 * (i 0).val + s) (i 2)

/-- The first result's block at point `t` is row `t / 8` of the array. -/
theorem rowOfOutA : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- The block written back after the last point of a run is that half's row of `partialA`. -/
theorem flushed_partialA (c : Dev nD) (t : Fin cfg0.N) (hf : (cfg0.win 2).flush t = true) :
    (dats m 0 c).flushed 2 t = ((cfg0.win 2).blk t).view.read (Elt Ideal) (partialA m c) := by
  have hN : cfg0.N = 16 := N_0
  have hlt := t.isLt
  have h7 : t.val % 8 = 7 := (flush0_2 t).mp hf
  obtain ⟨e0, e1, e2⟩ := rowOfOutA t
  show (cfg0.win 2).cut (grid0.coords t) ((dats m 0 c).after 2 t) = _
  rw [after0_2]
  funext j
  revert j
  show ∀ j : S1x1x512.Idx, accA m c t.val t.isLt j = partialA m c (((cfg0.win 2).blk t).view.emb j)
  intro j
  obtain ⟨u, u', k, rfl⟩ : ∃ (u u' : Fin 1) (k : Fin 512), j = ix3 u u' k := ⟨j 0, j 1, j 2, eq_ix3 j⟩
  obtain rfl : u = 0 := Subsingleton.elim _ _
  obtain rfl : u' = 0 := Subsingleton.elim _ _
  have hemb : ((cfg0.win 2).blk t).view.emb (ix3 (0 : Fin 1) (0 : Fin 1) k)
      = (ix3 (⟨t.val / 8, by omega⟩ : Fin 2) (0 : Fin 1) k : S2x1x512.Idx) := by
    funext a; apply Fin.ext
    match a with
    | ⟨0, _⟩ => show win0_2.index t (0 : Fin 3) * 1 + 1 * (0 : Fin 1).val = t.val / 8; rw [e0]; simp
    | ⟨1, _⟩ => show win0_2.index t (1 : Fin 3) * 1 + 1 * (0 : Fin 1).val = (0 : Fin 1).val; rw [e1]; simp
    | ⟨2, _⟩ => show win0_2.index t (2 : Fin 3) * 512 + 1 * k.val = k.val; rw [e2]; omega
  rw [accA_at m c t.val t.isLt k, h7, hemb]
  rfl

/-- Every entry of the first result array is in the block written back after the last point of its half's run. -/
theorem cover_partialA (c : Dev nD) (i : S2x1x512.Idx) :
    ∃ t : Fin cfg0.N, (cfg0.win 2).flush t = true ∧ i ∈ ((cfg0.win 2).blk t).view.set := by
  have hN : cfg0.N = 16 := N_0
  have h0 : (i 0).val < 2 := (i 0).isLt
  have h1 : (i 1).val < 1 := (i 1).isLt
  have h2 : (i 2).val < 512 := (i 2).isLt
  obtain ⟨t, ht⟩ : ∃ t : Fin cfg0.N, t.val = 8 * (i 0).val + 7 := ⟨⟨8 * (i 0).val + 7, by omega⟩, rfl⟩
  obtain ⟨e0, e1, e2⟩ := rowOfOutA t
  refine ⟨t, (flush0_2 t).mpr (by omega), ?_⟩
  show i ∈ ((View.whole main_call0_v2_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 512 ≤ (i 2).val ∧ (i 2).val < win0_2.index t (2 : Fin 3) * 512 + 512
    rw [e2]; omega

/-- So the first result array ends at `partialA`. -/
theorem final_partialA (c : Dev nD) : (dats m 0 c).arrAt 2 cfg0.N = partialA m c :=
  (dats m 0 c).arrAt_eq_of_cover 2 (partialA m c) (flushed_partialA m c) (cover_partialA c)

theorem accB_at (c : Dev nD) (n : ℕ) (h : n < cfg0.N) (k : Fin 512) :
    accB m c n h (ix3 (0 : Fin 1) (0 : Fin 1) k)
      = 0 + ∑ s ∈ Finset.range (n % 8 + 1), addB m c (8 * (n / 8) + s) k := by
  have e : 8 * (n / 8) + n % 8 = n := Nat.div_add_mod n 8
  have h' : 8 * (n / 8) + n % 8 < cfg0.N := by omega
  have same : ∀ (u : ℕ) (hu : u < cfg0.N), u = n → accB m c u hu = accB m c n h := fun u hu e => by subst e; rfl
  rw [← same _ h' e]
  exact accB_lane m c (n / 8) k (n % 8) (Nat.mod_lt _ (by norm_num)) h'

/-- What the second result array [2, 1, 512] holds at the end: for half `p` and lane `k`, zero plus what the eight points
    of the half's run added. -/
def partialB (c : Dev nD) : Vec Ideal S2x1x512 .f32 :=
  fun i => 0 + ∑ s ∈ Finset.range 8, addB m c (8 * (i 0).val + s) (i 2)

/-- The second result's block at point `t` is row `t / 8` of the array. -/
theorem rowOfOutB : ∀ t : Fin cfg0.N, win0_3.index t (0 : Fin 3) = t.val / 8 ∧ win0_3.index t (1 : Fin 3) = 0
    ∧ win0_3.index t (2 : Fin 3) = 0 :=
  (by decide +kernel : ∀ t : Fin grid0.N, _)

/-- The block written back after the last point of a run is that half's row of `partialB`. -/
theorem flushed_partialB (c : Dev nD) (t : Fin cfg0.N) (hf : (cfg0.win 3).flush t = true) :
    (dats m 0 c).flushed 3 t = ((cfg0.win 3).blk t).view.read (Elt Ideal) (partialB m c) := by
  have hN : cfg0.N = 16 := N_0
  have hlt := t.isLt
  have h7 : t.val % 8 = 7 := (flush0_3 t).mp hf
  obtain ⟨e0, e1, e2⟩ := rowOfOutB t
  show (cfg0.win 3).cut (grid0.coords t) ((dats m 0 c).after 3 t) = _
  rw [after0_3]
  funext j
  revert j
  show ∀ j : S1x1x512.Idx, accB m c t.val t.isLt j = partialB m c (((cfg0.win 3).blk t).view.emb j)
  intro j
  obtain ⟨u, u', k, rfl⟩ : ∃ (u u' : Fin 1) (k : Fin 512), j = ix3 u u' k := ⟨j 0, j 1, j 2, eq_ix3 j⟩
  obtain rfl : u = 0 := Subsingleton.elim _ _
  obtain rfl : u' = 0 := Subsingleton.elim _ _
  have hemb : ((cfg0.win 3).blk t).view.emb (ix3 (0 : Fin 1) (0 : Fin 1) k)
      = (ix3 (⟨t.val / 8, by omega⟩ : Fin 2) (0 : Fin 1) k : S2x1x512.Idx) := by
    funext a; apply Fin.ext
    match a with
    | ⟨0, _⟩ => show win0_3.index t (0 : Fin 3) * 1 + 1 * (0 : Fin 1).val = t.val / 8; rw [e0]; simp
    | ⟨1, _⟩ => show win0_3.index t (1 : Fin 3) * 1 + 1 * (0 : Fin 1).val = (0 : Fin 1).val; rw [e1]; simp
    | ⟨2, _⟩ => show win0_3.index t (2 : Fin 3) * 512 + 1 * k.val = k.val; rw [e2]; omega
  rw [accB_at m c t.val t.isLt k, h7, hemb]
  rfl

/-- Every entry of the second result array is in the block written back after the last point of its half's run. -/
theorem cover_partialB (c : Dev nD) (i : S2x1x512.Idx) :
    ∃ t : Fin cfg0.N, (cfg0.win 3).flush t = true ∧ i ∈ ((cfg0.win 3).blk t).view.set := by
  have hN : cfg0.N = 16 := N_0
  have h0 : (i 0).val < 2 := (i 0).isLt
  have h1 : (i 1).val < 1 := (i 1).isLt
  have h2 : (i 2).val < 512 := (i 2).isLt
  obtain ⟨t, ht⟩ : ∃ t : Fin cfg0.N, t.val = 8 * (i 0).val + 7 := ⟨⟨8 * (i 0).val + 7, by omega⟩, rfl⟩
  obtain ⟨e0, e1, e2⟩ := rowOfOutB t
  refine ⟨t, (flush0_3 t).mpr (by omega), ?_⟩
  show i ∈ ((View.whole main_call0_v2_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 512 ≤ (i 2).val ∧ (i 2).val < win0_3.index t (2 : Fin 3) * 512 + 512
    rw [e2]; omega

/-- So the second result array ends at `partialB`. -/
theorem final_partialB (c : Dev nD) : (dats m 0 c).arrAt 3 cfg0.N = partialB m c :=
  (dats m 0 c).arrAt_eq_of_cover 3 (partialB m c) (flushed_partialB m c) (cover_partialB c)

end Cert.KernelIdeal.ColSum

end
-- ==== Proof.GramSum.lean ====
/-
  The sum of all entries of the product  a · bᵀ  of two N × K arrays factors through the column sums:

      ∑ p, ∑ q, ∑ k, a p k * b q k  =  ∑ k, (∑ p, a p k) * (∑ q, b q k).

  Over the reals this is distributivity and an exchange of finite sums.  Over the extended reals it needs every
  entry finite (a product does not distribute over a sum that holds +∞ and -∞), so the entries are first named
  as reals and the coercion is pushed outward.  The column sums are taken the way a row-blocked accumulation
  takes them: the N = 16384 rows are split in 2 halves of 8 blocks of 1024 rows, row `c * 8192 + s * 1024 + r`
  being row `r` of block `s` of half `c`; each partial sum starts from an explicit `0`.
-/
import Idealize.ShloMosaic.PureOps.Ideal.Laws

noncomputable section

namespace Cert.GramSum

open Finset

/-- Row `r` of block `s` of half `c`, as a row of the whole array. -/
def row (c : Fin 2) (s : Fin 8) (r : Fin 1024) : Fin 16384 :=
  ⟨c.val * 8192 + s.val * 1024 + r.val, by have := c.isLt; have := s.isLt; have := r.isLt; omega⟩

/-- Every row is exactly one (half, block, row in block). -/
def rowEquiv : Fin 2 × Fin 8 × Fin 1024 ≃ Fin 16384 where
  toFun x := row x.1 x.2.1 x.2.2
  invFun p := (⟨p.val / 8192, by have := p.isLt; omega⟩, ⟨p.val % 8192 / 1024, by have := p.isLt; omega⟩,
    ⟨p.val % 1024, by omega⟩)
  left_inv := by
    rintro ⟨c, s, r⟩
    have := c.isLt; have := s.isLt; have := r.isLt
    refine Prod.ext (Fin.ext ?_) (Prod.ext (Fin.ext ?_) (Fin.ext ?_)) <;> simp only [row] <;> omega
  right_inv p := Fin.ext (by have := p.isLt; simp only [row]; omega)

/-- A sum over the rows, taken half by half, block by block, row by row. -/
theorem sum_blocked {M : Type*} [AddCommMonoid M] (f : Fin 16384 → M) :
    ∑ c : Fin 2, ∑ s : Fin 8, ∑ r : Fin 1024, f (row c s r) = ∑ p, f p := by
  rw [← Fintype.sum_equiv rowEquiv (fun x => f (row x.1 x.2.1 x.2.2)) f (fun _ => rfl), Fintype.sum_prod_type]
  exact Finset.sum_congr rfl fun c _ =>
    (Fintype.sum_prod_type (fun y : Fin 8 × Fin 1024 => f (row c y.1 y.2))).symm

/-- The coercion of a finite real sum is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

/-- Over the reals: the products of the column sums, added up, are the sum of every entry of a · bᵀ. -/
theorem gram_real (A B : Fin 16384 → Fin 512 → ℝ) :
    ∑ k : Fin 512, (∑ c : Fin 2, ∑ s : Fin 8, ∑ r : Fin 1024, A (row c s r) k)
        * (∑ c : Fin 2, ∑ s : Fin 8, ∑ r : Fin 1024, B (row c s r) k)
      = ∑ p : Fin 16384, ∑ q : Fin 16384, ∑ k : Fin 512, A p k * B q k := by
  calc ∑ k : Fin 512, (∑ c : Fin 2, ∑ s : Fin 8, ∑ r : Fin 1024, A (row c s r) k)
        * (∑ c : Fin 2, ∑ s : Fin 8, ∑ r : Fin 1024, B (row c s r) k)
      = ∑ k : Fin 512, ∑ p : Fin 16384, ∑ q : Fin 16384, A p k * B q k :=
        Finset.sum_congr rfl fun k _ => by
          rw [sum_blocked (fun p => A p k), sum_blocked (fun p => B p k), Finset.sum_mul_sum]
    _ = ∑ p : Fin 16384, ∑ k : Fin 512, ∑ q : Fin 16384, A p k * B q k := Finset.sum_comm
    _ = ∑ p : Fin 16384, ∑ q : Fin 16384, ∑ k : Fin 512, A p k * B q k :=
        Finset.sum_congr rfl fun p _ => Finset.sum_comm

/-- Over the extended reals, every entry finite: the blocked column sums (each partial sum started from `0`),
    multiplied lane by lane and added up from `0`, are `0` plus the sum of every entry of a · bᵀ. -/
theorem gram_total (a b : Fin 16384 → Fin 512 → EReal)
    (ha : ∀ p k, a p k ≠ ⊤ ∧ a p k ≠ ⊥) (hb : ∀ p k, b p k ≠ ⊤ ∧ b p k ≠ ⊥) :
    (0 : EReal) + ∑ k : Fin 512,
        ((0 + ∑ c : Fin 2, (0 + ∑ s : Fin 8, ∑ r : Fin 1024, a (row c s r) k))
          * (0 + ∑ c : Fin 2, (0 + ∑ s : Fin 8, ∑ r : Fin 1024, b (row c s r) k)))
      = 0 + ∑ p : Fin 16384, ∑ q : Fin 16384, ∑ k : Fin 512, a p k * b q k := by
  obtain ⟨A, rfl⟩ : ∃ A : Fin 16384 → Fin 512 → ℝ, a = fun p k => ((A p k : ℝ) : EReal) :=
    ⟨fun p k => (a p k).toReal, funext fun p => funext fun k => (EReal.coe_toReal (ha p k).1 (ha p k).2).symm⟩
  obtain ⟨B, rfl⟩ : ∃ B : Fin 16384 → Fin 512 → ℝ, b = fun p k => ((B p k : ℝ) : EReal) :=
    ⟨fun p k => (b p k).toReal, funext fun p => funext fun k => (EReal.coe_toReal (hb p k).1 (hb p k).2).symm⟩
  simp only [zero_add, ← coe_sum, ← EReal.coe_mul]
  exact congrArg _ (gram_real A B)

end Cert.GramSum

end
-- ==== Proof.Blocks.lean ====
/-
  The blocks the grid points work on, as rows of the operands.

  Before the kernel the host views each [16384, 512] operand as [2, 8192, 512]: row `p * 8192 + q` of the operand is
  row `q` of half `p`.  Grid point `t` works on half `t / 8`, rows `(t % 8) * 1024 … + 1023` of it.  So what point
  `8p + s` adds to an accumulator at lane `k` is the sum over `r` of the operand's entries at row
  `p * 8192 + s * 1024 + r`, column `k`.
-/
import proofs.«401128_j15513421873437_3_alg».proof.Proof.Accumulate
import proofs.«401128_j15513421873437_3_alg».proof.Proof.GramSum
import Idealize.ShloMosaic.Lib.StableHlo.Run

noncomputable section

namespace Cert.KernelIdeal.ColSum

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Which block of the first operand point `t` fetches: half `t / 8`, block `t % 8` of its rows, all lanes; -/
theorem blockOfA : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
/-- the same block of the second operand. -/
theorem blockOfB : ∀ t : Fin cfg0.N, win0_1.index t (0 : Fin 3) = t.val / 8 ∧ win0_1.index t (1 : Fin 3) = t.val % 8
    ∧ win0_1.index t (2 : Fin 3) = 0 :=
  (by decide +kernel : ∀ t : Fin grid0.N, _)

/-- The first operand, as launched; -/
abbrev opA (c : Dev nD) : Vec Ideal S16384x512 .f32 := m ((c : Thread nD τ).loc main_arg0)
/-- the second. -/
abbrev opB (c : Dev nD) : Vec Ideal S16384x512 .f32 := m ((c : Thread nD τ).loc main_arg1)

/-- The first operand as the kernel finds it, in halves; -/
abbrev halvesA (c : Dev nD) : Vec Ideal S2x8192x512 .f32 := V m c main_call0_v0
/-- the second. -/
abbrev halvesB (c : Dev nD) : Vec Ideal S2x8192x512 .f32 := V m c main_call0_v1

theorem halvesA_eq (c : Dev nD) :
    halvesA m c = shapeCast S2x8192x512 (m ((c : Thread nD τ).loc main_arg0)) shapeCasts_S16384x512_S2x8192x512 := by
  show StableHlo.after hostOps0 (fun b => m (c, b)) (Proc.devRef .tc main_call0_v0) = _
  after_results
  rfl

theorem halvesB_eq (c : Dev nD) :
    halvesB m c = shapeCast S2x8192x512 (m ((c : Thread nD τ).loc main_arg1)) shapeCasts_S16384x512_S2x8192x512 := by
  show StableHlo.after hostOps0 (fun b => m (c, b)) (Proc.devRef .tc main_call0_v1) = _
  after_results
  rfl

/-- Row `r`, lane `k` of the block point `t` fetches of the first operand: row `(t % 8) * 1024 + r` of half `t / 8`. -/
theorem ablk_apply (c : Dev nD) (t : Fin cfg0.N) (r : Fin 1024) (k : Fin 512) (p : Fin 2) (q : Fin 8192)
    (hp : p.val = t.val / 8) (hq : q.val = t.val % 8 * 1024 + r.val) :
    ablk m c t (ix3 (0 : Fin 1) r k) = halvesA m c (ix3 p q k) := by
  obtain ⟨e0, e1, e2⟩ := blockOfA t
  show iblk m c 0 t (ix3 (0 : Fin 1) r k) = _
  unfold iblk
  rw [View.read_apply]
  show V m c main_call0_v0 (((cfg0.win 0).blk t).view.emb (ix3 (0 : Fin 1) r k)) = V m c main_call0_v0 (ix3 p q k)
  refine congrArg _ (funext fun a => Fin.ext ?_)
  match a with
  | ⟨0, _⟩ => show win0_0.index t (0 : Fin 3) * 1 + 1 * (0 : Fin 1).val = p.val; rw [e0, hp]; simp
  | ⟨1, _⟩ => show win0_0.index t (1 : Fin 3) * 1024 + 1 * r.val = q.val; rw [e1, hq]; omega
  | ⟨2, _⟩ => show win0_0.index t (2 : Fin 3) * 512 + 1 * k.val = k.val; rw [e2]; omega

/-- The same for the second operand. -/
theorem bblk_apply (c : Dev nD) (t : Fin cfg0.N) (r : Fin 1024) (k : Fin 512) (p : Fin 2) (q : Fin 8192)
    (hp : p.val = t.val / 8) (hq : q.val = t.val % 8 * 1024 + r.val) :
    bblk m c t (ix3 (0 : Fin 1) r k) = halvesB m c (ix3 p q k) := by
  obtain ⟨e0, e1, e2⟩ := blockOfB t
  show iblk m c 1 t (ix3 (0 : Fin 1) r k) = _
  unfold iblk
  rw [View.read_apply]
  show V m c main_call0_v1 (((cfg0.win 1).blk t).view.emb (ix3 (0 : Fin 1) r k)) = V m c main_call0_v1 (ix3 p q k)
  refine congrArg _ (funext fun a => Fin.ext ?_)
  match a with
  | ⟨0, _⟩ => show win0_1.index t (0 : Fin 3) * 1 + 1 * (0 : Fin 1).val = p.val; rw [e0, hp]; simp
  | ⟨1, _⟩ => show win0_1.index t (1 : Fin 3) * 1024 + 1 * r.val = q.val; rw [e1, hq]; omega
  | ⟨2, _⟩ => show win0_1.index t (2 : Fin 3) * 512 + 1 * k.val = k.val; rw [e2]; omega

/-- What point `8p + s` adds to the first accumulator at lane `k`: the first operand's entries of column `k` over the
    1024 rows of block `s` of half `p`. -/
theorem addA_eq (c : Dev nD) (p : Fin 2) (s : Fin 8) (k : Fin 512) :
    addA m c (8 * p.val + s.val) k
      = ∑ r : Fin 1024, opA m c (ix2 (Cert.GramSum.row p s r) k) := by
  have hN : cfg0.N = 16 := N_0
  have hp := p.isLt
  have hs := s.isLt
  have h : 8 * p.val + s.val < cfg0.N := by omega
  rw [addA_of_lt m c _ k h]
  refine Finset.sum_congr rfl fun r _ => ?_
  have hr := r.isLt
  rw [ablk_apply m c ⟨8 * p.val + s.val, h⟩ r k p ⟨s.val * 1024 + r.val, by omega⟩
    (by show p.val = (8 * p.val + s.val) / 8; omega)
    (by show s.val * 1024 + r.val = (8 * p.val + s.val) % 8 * 1024 + r.val; omega), halvesA_eq]
  exact Cert.LibFlatten.shapeCast_nc_abc_apply (opA m c) shapeCasts_S16384x512_S2x8192x512 p _ k (Cert.GramSum.row p s r)
    (by simp only [Cert.GramSum.row]; omega)

/-- The same for the second accumulator and the second operand. -/
theorem addB_eq (c : Dev nD) (p : Fin 2) (s : Fin 8) (k : Fin 512) :
    addB m c (8 * p.val + s.val) k
      = ∑ r : Fin 1024, opB m c (ix2 (Cert.GramSum.row p s r) k) := by
  have hN : cfg0.N = 16 := N_0
  have hp := p.isLt
  have hs := s.isLt
  have h : 8 * p.val + s.val < cfg0.N := by omega
  rw [addB_of_lt m c _ k h]
  refine Finset.sum_congr rfl fun r _ => ?_
  have hr := r.isLt
  rw [bblk_apply m c ⟨8 * p.val + s.val, h⟩ r k p ⟨s.val * 1024 + r.val, by omega⟩
    (by show p.val = (8 * p.val + s.val) / 8; omega)
    (by show s.val * 1024 + r.val = (8 * p.val + s.val) % 8 * 1024 + r.val; omega), halvesB_eq]
  exact Cert.LibFlatten.shapeCast_nc_abc_apply (opB m c) shapeCasts_S16384x512_S2x8192x512 p _ k (Cert.GramSum.row p s r)
    (by simp only [Cert.GramSum.row]; omega)

end Cert.KernelIdeal.ColSum

end
-- ==== Proof.Loss.lean ====
/-
  The last three operations of the loss, shared word for word by the two programs: the total is divided by
  N · M = 2²⁸ (the mean of the N × M products), doubled, and clamped from below at the f32 nearest 1e-7.
-/
import Idealize.ShloMosaic.PureOps.Ideal.Laws

noncomputable section

namespace Cert.GramLoss

open Idealize.ShloMosaic

/-- The shape of a scalar. -/
abbrev S0 : Shape := ⟨0, ![]⟩

/-- `max (2 · (t / 2²⁸)) 1e-7`, with the three constants as the f32 words both programs print. -/
def lossOf (t : FVec Ideal S0 .f32) : FVec Ideal S0 .f32 :=
  maximumf (mulf (constant (F := Ideal) S0 .f32 0x40000000#32) (Host.divf t (constant (F := Ideal) S0 .f32 0x4D800000#32)))
    (constant (F := Ideal) S0 .f32 0x33D6BF95#32)

end Cert.GramLoss

end
-- ==== Proof.KernelLoss.lean ====
/-
  The kernel's result, read.

  After the kernel the host adds the two halves' partial sums per lane (giving each operand's 512 column sums),
  multiplies the two operands' column sums lane by lane, adds the 512 products, and applies the shared loss.  With
  the result arrays at their closed forms the total is

      0 + ∑ k, (0 + ∑ p, (0 + ∑ s, ∑ r, a[row p s r, k])) · (0 + ∑ p, (0 + ∑ s, ∑ r, b[row p s r, k]))

  which, every entry finite, is  0 + ∑ p, ∑ q, ∑ k, a[p, k] · b[q, k]  (the factoring of the sum of a · bᵀ through the
  column sums).
-/
import proofs.«401128_j15513421873437_3_alg».proof.Proof.Partials
import proofs.«401128_j15513421873437_3_alg».proof.Proof.Blocks
import proofs.«401128_j15513421873437_3_alg».proof.Proof.Loss
import proofs.«401128_j15513421873437_3_alg».proof.Proof.GramSum
import Idealize.ShloMosaic.Lib.StableHlo.Run

noncomputable section

namespace Cert.KernelIdeal.ColSum

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The total the host computes from the two result arrays `A`, `B`. -/
def totalOf (A B : FVec Ideal S2x1x512 .f32) : FVec Ideal S_ .f32 :=
  Host.reduceAdd (F := Ideal)
    (mulf
      (shapeCast S512 (Host.reduceAdd (F := Ideal) A (constant (F := Ideal) S_ .f32 0x00000000#32)
        reducesTo_S2x1x512_S1x512_d0 h_S_) shapeCasts_S1x512_S512)
      (shapeCast S512 (Host.reduceAdd (F := Ideal) B (constant (F := Ideal) S_ .f32 0x00000000#32)
        reducesTo_S2x1x512_S1x512_d0 h_S_) shapeCasts_S1x512_S512))
    (constant (F := Ideal) S_ .f32 0x00000000#32) reducesTo_S512_S_d0 h_S_

/-- The host lines after the kernel, from any contents `W` of the buffers: the result is the shared loss of the
    total of the two result arrays. -/
theorem tail_of (W : Valuation τ sig (Elt Ideal)) :
    StableHlo.after hostOps1 W (Proc.devRef .tc main_v0)
      = Cert.GramLoss.lossOf (totalOf (W (Proc.devRef .tc main_call0_v2_0)) (W (Proc.devRef .tc main_call0_v2_1))) := by
  after_results
  rfl

/-- The kernel's result buffer after the run. -/
theorem result_eq (c : Dev nD) :
    Pipeline.afterTail₀ cfgs (dats m) 0 (V0 m) [hostOps1] c main_v0
      = Cert.GramLoss.lossOf (totalOf (partialA m c) (partialB m c)) := by
  have eA := (Pipeline.withArrays_arr spec0 launch0.win.arr_inj c (V0 m c)
    (fun w => (dats m 0 c).arrAt w (cfgs 0).N) 2).trans (final_partialA m c)
  have eB := (Pipeline.withArrays_arr spec0 launch0.win.arr_inj c (V0 m c)
    (fun w => (dats m 0 c).arrAt w (cfgs 0).N) 3).trans (final_partialB m c)
  unfold Pipeline.afterTail₀
  show StableHlo.after hostOps1 _ (Proc.devRef .tc main_v0) = _
  rw [tail_of]
  exact congrArg₂ (fun A B => Cert.GramLoss.lossOf (totalOf A B)) eA eB

/-! ## The total at its one index -/

/-- The host's sum of a [2, 1, 512] array over its halves, at lane `k`. -/
theorem sumHalves_apply (x : FVec Ideal S2x1x512 .f32) (u : Fin 1) (k : Fin 512) :
    Host.reduceAdd (F := Ideal) x (constant (F := Ideal) S_ .f32 0x00000000#32) reducesTo_S2x1x512_S1x512_d0 h_S_ (ix2 u k)
      = 0 + ∑ p : Fin 2, x (ix3 p (0 : Fin 1) k) := by
  obtain rfl : u = 0 := Subsingleton.elim _ _
  simp only [Host.reduceAdd, Ideal.hostReduceAdd_def]
  rw [Ideal.hostReduceAdd_single reducesTo_S2x1x512_S1x512_d0 (by decide : S2x1x512.Reduces [0] S1x512)]
  show Ideal.ofBits .f32 0x00000000#32 + _ = _
  rw [Ideal.ofBits_zero_f32]
  refine congrArg (0 + ·) (Finset.sum_congr rfl fun p _ => congrArg x (funext fun ax => Fin.ext ?_))
  match ax with
  | ⟨0, _⟩ => rfl
  | ⟨1, _⟩ => rfl
  | ⟨2, _⟩ => rfl

/-- A row [1, 512] laid flat, at lane `k`. -/
theorem flatRow_apply (v : FVec Ideal S1x512 .f32) (k : Fin 512) :
    shapeCast S512 v shapeCasts_S1x512_S512 (ix1 k) = v (ix2 (0 : Fin 1) k) :=
  shapeCast_apply v shapeCasts_S1x512_S512 _ _ (by
    rw [Shape.rowMajor_val_two, Shape.rowMajor_val_one]
    show 0 * 512 + k.val = k.val
    omega)

/-- A sum over the indices of a vector is the sum over its one coordinate. -/
theorem sum_idx1 {M : Type*} [AddCommMonoid M] {n : ℕ} (f : (⟨1, ![n]⟩ : Shape).Idx → M) :
    ∑ i, f i = ∑ k : Fin n, f (ix1 k) :=
  Fintype.sum_equiv ⟨fun i => i 0, fun k => ix1 k, fun i => (eq_ix1 i).symm, fun _ => rfl⟩ f (fun k => f (ix1 k))
    (fun i => congrArg f (eq_ix1 i))

/-- The host's sum of 512 lanes. -/
theorem sumLanes_apply (x : FVec Ideal S512 .f32) (i : S_.Idx) :
    Host.reduceAdd (F := Ideal) x (constant (F := Ideal) S_ .f32 0x00000000#32) reducesTo_S512_S_d0 h_S_ i
      = 0 + ∑ k : Fin 512, x (ix1 k) := by
  simp only [Host.reduceAdd, Ideal.hostReduceAdd_def]
  rw [Ideal.hostReduceAdd_total reducesTo_S512_S_d0 (fun b => b.elim0)]
  show Ideal.ofBits .f32 0x00000000#32 + _ = _
  rw [Ideal.ofBits_zero_f32, sum_idx1]

theorem totalOf_apply (A B : FVec Ideal S2x1x512 .f32) (i : S_.Idx) :
    totalOf A B i = 0 + ∑ k : Fin 512,
      ((0 + ∑ p : Fin 2, A (ix3 p (0 : Fin 1) k)) * (0 + ∑ p : Fin 2, B (ix3 p (0 : Fin 1) k))) := by
  unfold totalOf
  rw [sumLanes_apply]
  refine congrArg (0 + ·) (Finset.sum_congr rfl fun k _ => ?_)
  rw [mulf_apply, flatRow_apply, flatRow_apply, sumHalves_apply, sumHalves_apply]

/-- Entry [p, 0, k] of the first result array: zero plus the column-`k` entries of the 8 row blocks of half `p`. -/
theorem partialA_apply (c : Dev nD) (p : Fin 2) (k : Fin 512) :
    partialA m c (ix3 p (0 : Fin 1) k)
      = 0 + ∑ s : Fin 8, ∑ r : Fin 1024, opA m c (ix2 (Cert.GramSum.row p s r) k) := by
  show 0 + ∑ s ∈ Finset.range 8, addA m c (8 * p.val + s) k = _
  rw [← Fin.sum_univ_eq_sum_range (fun s => addA m c (8 * p.val + s) k) 8]
  exact congrArg (0 + ·) (Finset.sum_congr rfl fun s _ => addA_eq m c p s k)

theorem partialB_apply (c : Dev nD) (p : Fin 2) (k : Fin 512) :
    partialB m c (ix3 p (0 : Fin 1) k)
      = 0 + ∑ s : Fin 8, ∑ r : Fin 1024, opB m c (ix2 (Cert.GramSum.row p s r) k) := by
  show 0 + ∑ s ∈ Finset.range 8, addB m c (8 * p.val + s) k = _
  rw [← Fin.sum_univ_eq_sum_range (fun s => addB m c (8 * p.val + s) k) 8]
  exact congrArg (0 + ·) (Finset.sum_congr rfl fun s _ => addB_eq m c p s k)

/-- The kernel's total, every entry of the operands finite: zero plus every product `a[p, k] · b[q, k]`. -/
theorem total_eq (c : Dev nD) (ha : ∀ i, opA m c i ≠ ⊤ ∧ opA m c i ≠ ⊥) (hb : ∀ i, opB m c i ≠ ⊤ ∧ opB m c i ≠ ⊥)
    (i : S_.Idx) :
    totalOf (partialA m c) (partialB m c) i
      = 0 + ∑ p : Fin 16384, ∑ q : Fin 16384, ∑ k : Fin 512, opA m c (ix2 p k) * opB m c (ix2 q k) := by
  rw [totalOf_apply]
  simp only [partialA_apply, partialB_apply]
  exact Cert.GramSum.gram_total (fun p k => opA m c (ix2 p k)) (fun p k => opB m c (ix2 p k))
    (fun p k => ha _) (fun p k => hb _)

end Cert.KernelIdeal.ColSum

end
-- ==== Proof.RefSide.lean ====
/-
  The reference, read: its result is the shared loss of the total of a · bᵀ, and that total, over the extended
  reals, is  0 + ∑ p, ∑ q, ∑ k, a[p, k] · b[q, k]  (the transpose read back, the product as the sum over the shared
  index, the sum over both axes of the N × N product as a double sum).
-/
import proofs.«401128_j15513421873437_3_alg».proof.Proof.Gen.ReferenceIdeal.Run
import proofs.«401128_j15513421873437_3_alg».proof.Proof.Gen.ReferenceIdeal.Read
import proofs.«401128_j15513421873437_3_alg».proof.Proof.Loss

noncomputable section

namespace Cert.ReferenceIdeal.GramTotal

open Idealize.ShloMosaic Idealize.ShloMosaic.ValueIdx
open Cert.ReferenceIdeal Cert.ReferenceIdeal.Gen Cert.ReferenceIdeal.Read

/-- The total the reference divides: zero plus every product `a[p, k] · b[q, k]`. -/
theorem total_apply (x0 x1 : FVec Ideal S16384x512 .f32) (i : S_.Idx) :
    val_main_v2 (F := Ideal) x0 x1 i
      = 0 + ∑ p : Fin 16384, ∑ q : Fin 16384, ∑ k : Fin 512, x0 (ix2 p k) * x1 (ix2 q k) := by
  rw [val_main_v2_apply]
  show Ideal.ofBits .f32 0x00000000#32 + _ = _
  rw [Ideal.ofBits_zero_f32, sum_idx2]
  refine congrArg (0 + ·) (Finset.sum_congr rfl fun p _ => Finset.sum_congr rfl fun q _ => ?_)
  rw [val_main_v1_apply]
  refine Finset.sum_congr rfl fun k _ => ?_
  rw [val_main_v0_apply]
  have e1 : lidx_main_v1 (ix2 p q) k = ix2 p k :=
    funext fun a => Fin.ext (by match a with | ⟨0, _⟩ => rfl | ⟨1, _⟩ => rfl)
  have e2 : idx_main_v0 (ridx_main_v1 (ix2 p q) k) = ix2 q k :=
    funext fun a => Fin.ext (by match a with | ⟨0, _⟩ => rfl | ⟨1, _⟩ => rfl)
  rw [e1, e2]

/-- The reference's result is the shared loss of that total. -/
theorem result_eq (x0 x1 : FVec Ideal S16384x512 .f32) :
    val_main_v5 (F := Ideal) x0 x1 = Cert.GramLoss.lossOf (val_main_v2 (F := Ideal) x0 x1) := rfl

end Cert.ReferenceIdeal.GramTotal

end
-- ==== Proof.FiniteEntries.lean ====
/-
  The precondition, read back: every entry of both operands is a real number.

  The precondition asks  |x| < +∞  of every entry of each operand and conjoins the two answers.  Over the extended
  reals  max x (-x) < ⊤  excludes exactly  x = ⊤  and  x = ⊥.
-/
import proofs.«401128_j15513421873437_3_alg».proof.Pre_finite_inputs
import proofs.«401128_j15513421873437_3_alg».proof.Proof.Gen.Pre_finite_inputs
import Idealize.ShloMosaic.Lib.ReduceAll
import Idealize.ShloMosaic.Lib.ValueIdx
import Idealize.ShloMosaic.PureOps.Ideal.Laws

noncomputable section

namespace Cert.FiniteEntries

open Idealize.ShloMosaic

instance : Subsingleton Cert.Pre_finite_inputs.S_.Idx := ⟨fun a b => funext fun d => d.elim0⟩

/-- The f32 word of +∞ denotes ⊤. -/
theorem inf_word : Ideal.ofBits .f32 0x7F800000#32 = (⊤ : EReal) := by
  simp [Ideal.ofBits, Ideal.ieee]

/-- An extended real whose absolute value is below ⊤ is neither infinity. -/
theorem real_of_abs_lt (x : EReal) (h : Ideal.cmp .olt (max x (-x)) (⊤ : EReal) = 1#1) : x ≠ ⊤ ∧ x ≠ ⊥ := by
  have hlt : max x (-x) < ⊤ := by
    unfold Ideal.cmp at h
    by_contra hn
    simp [hn] at h
  constructor
  · rintro rfl; simp at hlt
  · rintro rfl; simp at hlt

theorem entries_real (a b : FVec Ideal Cert.Pre_finite_inputs.S16384x512 .f32)
    (h : Cert.Pre_finite_inputs.fn (F := Ideal) a b = fun _ => 1#1) :
    (∀ i, a i ≠ ⊤ ∧ a i ≠ ⊥) ∧ (∀ i, b i ≠ ⊤ ∧ b i ≠ ⊥) := by
  have h0 := congrFun h ValueIdx.ix0
  dsimp only [Cert.Pre_finite_inputs.fn] at h0
  obtain ⟨ha, hb⟩ := IntOp.andi_eq_one.1 h0
  refine ⟨fun i => ?_, fun i => ?_⟩
  · have e : Ideal.cmp .olt (max (a i) (-(a i))) (Ideal.ofBits .f32 0x7F800000#32) = 1#1 :=
      Host.reduce_andi_all _ _ _ _ _ ha i
    rw [inf_word] at e
    exact real_of_abs_lt (a i) e
  · have e : Ideal.cmp .olt (max (b i) (-(b i))) (Ideal.ofBits .f32 0x7F800000#32) = 1#1 :=
      Host.reduce_andi_all _ _ _ _ _ hb i
    rw [inf_word] at e
    exact real_of_abs_lt (b i) e

end Cert.FiniteEntries

end
-- ==== Proof.lean ====
/-
  loss = max(2 · mean(a · bᵀ), 1e-7)  for a, b : f32[16384, 512], computed two ways.

  The reference forms the 16384 × 16384 product a · bᵀ, adds up all its entries, divides by 2²⁸, doubles and clamps.
  The kernel never forms the product: a row-blocked reduction accumulates the 512 column sums of `a` and of `b`
  (two halves of 8 blocks of 1024 rows, one accumulator row per half), the host adds the two halves, multiplies the
  two operands' column sums lane by lane, adds the 512 products, and then divides, doubles and clamps with the same
  three constants.  Over the extended reals the two totals agree when every entry is finite,

      ∑ p, ∑ q, ∑ k, a[p, k] · b[q, k]  =  ∑ k, (∑ p, a[p, k]) · (∑ q, b[q, k]),

  which is distributivity and an exchange of finite sums over the reals (GramSum); finiteness is what the
  precondition gives (FiniteEntries).  The kernel's side is read off its run: what one grid step leaves in the
  accumulators (CaseValues, StepAtLane), the accumulators across the grid (Accumulate), the blocks as rows of the
  operands (Blocks), the result arrays at the end (Partials), and the host lines after the kernel (KernelLoss).  The
  reference's side is its run read one operation at a time (RefSide).  The idealization rewrote nothing, so
  `preserves` is trivial; the three frames are the runs with the results dropped.
-/
import proofs.«401128_j15513421873437_3_alg».proof.Defs
import proofs.«401128_j15513421873437_3_alg».proof.Proof.Gen.Kernel
import proofs.«401128_j15513421873437_3_alg».proof.Proof.Gen.Kernel.Frame
import proofs.«401128_j15513421873437_3_alg».proof.Proof.Gen.KernelIdeal
import proofs.«401128_j15513421873437_3_alg».proof.Proof.Gen.KernelIdeal.Frame
import proofs.«401128_j15513421873437_3_alg».proof.Proof.Gen.ReferenceIdeal
import proofs.«401128_j15513421873437_3_alg».proof.Proof.Gen.ReferenceIdeal.Run
import proofs.«401128_j15513421873437_3_alg».proof.Proof.Gen.ReferenceIdeal.Read
import proofs.«401128_j15513421873437_3_alg».proof.Proof.Gen.Pre_finite_inputs
import proofs.«401128_j15513421873437_3_alg».proof.Proof.KernelLoss
import proofs.«401128_j15513421873437_3_alg».proof.Proof.RefSide
import proofs.«401128_j15513421873437_3_alg».proof.Proof.FiniteEntries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the shared loss of one and the same total. -/
theorem algebraic : Cert.algebraic_KernelIdeal_ReferenceIdeal := by
  intro m ρ m' ρ' hpre hagree
  refine ⟨fun c => Cert.GramLoss.lossOf (Cert.KernelIdeal.ColSum.totalOf
    (Cert.KernelIdeal.ColSum.partialA m c) (Cert.KernelIdeal.ColSum.partialB m c)), ?_, ?_⟩
  · refine (θ_run Cert.KernelIdeal.defs _ _).mono (fun r h c => ⟨?_, ?_, ?_⟩) (Cert.KernelIdeal.Gen.run_main m ρ)
    · exact ((h c).2 Cert.KernelIdeal.main_v0 (Pipeline.mem_restRefs_of Cert.KernelIdeal.main_v0 (by decide) (by decide))).trans
        (Cert.KernelIdeal.ColSum.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    obtain ⟨ha, hb⟩ := Cert.FiniteEntries.entries_real _ _ (hpre c)
    rw [Cert.ReferenceIdeal.Read.val_main_v5_eq, Cert.ReferenceIdeal.GramTotal.result_eq]
    refine congrArg Cert.GramLoss.lossOf (funext fun i => ?_)
    rw [Cert.ReferenceIdeal.GramTotal.total_apply, (hagree c).1, (hagree c).2]
    exact (Cert.KernelIdeal.ColSum.total_eq m c ha hb i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
